-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S66x128x128 : Shape := ⟨3, ![66, 128, 128]⟩
abbrev S66x128 : Shape := ⟨2, ![66, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S66x128x128 : S_.BroadcastsInDim S66x128x128 (![] : Fin 0 → Fin S66x128x128.rank)
  reducesTo_S66x128x128_S_d0_1_2 : S66x128x128.ReducesTo [0, 1, 2] S_
  bcast_S_S66x128 : S_.BroadcastsInDim S66x128 (![] : Fin 0 → Fin S66x128.rank)
  reducesTo_S66x128_S_d0_1 : S66x128.ReducesTo [0, 1] S_

variable [Facts]

def fn {F : FTy → Type} [FloatOps F] (main_arg0 : FVec F S262144x128 .f32) (main_arg1 : FVec F S66x128x128 .f32) (main_arg2 : FVec F S66x128 .f32) (main_arg3 : IVec S262144 32) (main_arg4 : IVec S262144 32) (main_arg5 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S66x128x128 .f32 := Host.absf main_arg1
  let main_cst_0 : FVec F S_ .f32 := constant S_ .f32 0x7F800000#32
  let main_v5 : FVec F S66x128x128 .f32 := broadcastInDim S66x128x128 ![] bcast_S_S66x128x128 main_cst_0
  let main_v6 : IVec S66x128x128 1 := cmpf .olt main_v4 main_v5
  let main_c_1 : IVec S_ 1 := constantI S_ 1 1#1
  let main_v7 : IVec S_ 1 := (fun x v => Host.reduce IntOp.andi x v reducesTo_S66x128x128_S_d0_1_2 h_S_) main_v6 main_c_1
  let main_v8 : IVec S_ 1 := andi main_v3 main_v7
  let main_v9 : FVec F S66x128 .f32 := Host.absf main_arg2
  let main_cst_2 : FVec F S_ .f32 := constant S_ .f32 0x7F800000#32
  let main_v10 : FVec F S66x128 .f32 := broadcastInDim S66x128 ![] bcast_S_S66x128 main_cst_2
  let main_v11 : IVec S66x128 1 := cmpf .olt main_v9 main_v10
  let main_c_3 : IVec S_ 1 := constantI S_ 1 1#1
  let main_v12 : IVec S_ 1 := (fun x v => Host.reduce IntOp.andi x v reducesTo_S66x128_S_d0_1 h_S_) main_v11 main_c_3
  let main_v13 : IVec S_ 1 := andi main_v8 main_v12
  main_v13
-- ==== Kernel.lean ====
abbrev S262144x128 : Shape := ⟨2, ![262144, 128]⟩
abbrev S66x128x128 : Shape := ⟨3, ![66, 128, 128]⟩
abbrev S66x128 : Shape := ⟨2, ![66, 128]⟩
abbrev S262144 : Shape := ⟨1, ![262144]⟩
abbrev S32x128x128 : Shape := ⟨3, ![32, 128, 128]⟩
abbrev S32x128 : Shape := ⟨2, ![32, 128]⟩
abbrev S32x1x128 : Shape := ⟨3, ![32, 1, 128]⟩
abbrev S_ : Shape := ⟨0, ![]⟩
abbrev S262144x1 : Shape := ⟨2, ![262144, 1]⟩
abbrev S32x8192x128 : Shape := ⟨3, ![32, 8192, 128]⟩
abbrev S64x8192x128 : Shape := ⟨3, ![64, 8192, 128]⟩
abbrev S64x128x128 : Shape := ⟨3, ![64, 128, 128]⟩
abbrev S64x1x128 : Shape := ⟨3, ![64, 1, 128]⟩
abbrev S1x8192x128 : Shape := ⟨3, ![1, 8192, 128]⟩
abbrev S1x128x128 : Shape := ⟨3, ![1, 128, 128]⟩
abbrev S1x1x128 : Shape := ⟨3, ![1, 1, 128]⟩
abbrev S8192x128 : Shape := ⟨2, ![8192, 128]⟩
abbrev S128x128 : Shape := ⟨2, ![128, 128]⟩
abbrev S1x128 : Shape := ⟨2, ![1, 128]⟩
abbrev S128 : Shape := ⟨1, ![128]⟩
abbrev S4096x128 : Shape := ⟨2, ![4096, 128]⟩

abbrev nBuf : Space → Nat
  | .hbm => 54
  | .vmem => 18
  | .smem => 0
  | _ => 0

abbrev bufTy : (tb : Table) → Fin (tcTables nBuf tb) → BufTy
  | .hbm, ⟨0, _⟩ => ⟨S262144x128, .f32⟩
  | .hbm, ⟨1, _⟩ => ⟨S66x128x128, .f32⟩
  | .hbm, ⟨2, _⟩ => ⟨S66x128, .f32⟩
  | .hbm, ⟨3, _⟩ => ⟨S262144, .i32⟩
  | .hbm, ⟨4, _⟩ => ⟨S262144, .i32⟩
  | .hbm, ⟨5, _⟩ => ⟨S262144, .i32⟩
  | .hbm, ⟨6, _⟩ => ⟨S32x128x128, .f32⟩
  | .hbm, ⟨7, _⟩ => ⟨S32x128x128, .f32⟩
  | .hbm, ⟨8, _⟩ => ⟨S32x128, .f32⟩
  | .hbm, ⟨9, _⟩ => ⟨S32x1x128, .f32⟩
  | .hbm, ⟨10, _⟩ => ⟨S32x128, .f32⟩
  | .hbm, ⟨11, _⟩ => ⟨S32x1x128, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S32x8192x128, .f32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S262144x1, .i32⟩
  | .hbm, ⟨30, _⟩ => ⟨S262144x128, .f32⟩
  | .hbm, ⟨31, _⟩ => ⟨S32x8192x128, .f32⟩
  | .hbm, ⟨32, _⟩ => ⟨S64x8192x128, .f32⟩
  | .hbm, ⟨33, _⟩ => ⟨S64x128x128, .f32⟩
  | .hbm, ⟨34, _⟩ => ⟨S64x1x128, .f32⟩
  | .hbm, ⟨35, _⟩ => ⟨S64x8192x128, .f32⟩
  | .hbm, ⟨36, _⟩ => ⟨S32x8192x128, .f32⟩
  | .hbm, ⟨37, _⟩ => ⟨S262144x128, .f32⟩
  | .hbm, ⟨38, _⟩ => ⟨S32x8192x128, .f32⟩
  | .hbm, ⟨39, _⟩ => ⟨S262144x128, .f32⟩
  | .hbm, ⟨40, _⟩ => ⟨S_, .f32⟩
  | .hbm, ⟨41, _⟩ => ⟨S262144x128, .f32⟩
  | .hbm, ⟨42, _⟩ => ⟨S262144x1, .i32⟩
  | .hbm, ⟨43, _⟩ => ⟨S262144x128, .f32⟩
  | .hbm, ⟨44, _⟩ => ⟨S_, .f32⟩
  | .hbm, ⟨45, _⟩ => ⟨S262144x128, .f32⟩
  | .hbm, ⟨46, _⟩ => ⟨S262144x1, .i32⟩
  | .hbm, ⟨47, _⟩ => ⟨S262144x128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S262144x128, .f32⟩
  | .local _ .vmem, ⟨0, _⟩ => ⟨S1x8192x128, .f32⟩
  | .local _ .vmem, ⟨1, _⟩ => ⟨S1x8192x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128, .f32⟩
  | .local _ .vmem, ⟨5, _⟩ => ⟨S1x1x128, .f32⟩
  | .local _ .vmem, ⟨6, _⟩ => ⟨S1x8192x128, .f32⟩
  | .local _ .vmem, ⟨7, _⟩ => ⟨S1x8192x128, .f32⟩
  | .local _ .vmem, ⟨8, _⟩ => ⟨S4096x128, .f32⟩
  | .local _ .vmem, ⟨9, _⟩ => ⟨S4096x128, .f32⟩
  | .local _ .vmem, ⟨10, _⟩ => ⟨S128x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S66x128x128_S32x128x128_2_0_0 : S66x128x128.Slices ![2, 0, 0] S32x128x128
  slices_S66x128x128_S32x128x128_34_0_0 : S66x128x128.Slices ![34, 0, 0] S32x128x128
  slices_S66x128_S32x128_2_0 : S66x128.Slices ![2, 0] S32x128
  shapeCasts_S32x128_S32x1x128 : S32x128.ShapeCasts S32x1x128
  slices_S66x128_S32x128_34_0 : S66x128.Slices ![34, 0] S32x128
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x128_S32x8192x128 : S262144x128.ShapeCasts S32x8192x128
  concatenates_S32x8192x128_S32x8192x128_S64x8192x128_d0 : Shape.Concatenates [S32x8192x128, S32x8192x128] S64x8192x128 0
  concatenates_S32x128x128_S32x128x128_S64x128x128_d0 : Shape.Concatenates [S32x128x128, S32x128x128] S64x128x128 0
  concatenates_S32x1x128_S32x1x128_S64x1x128_d0 : Shape.Concatenates [S32x1x128, S32x1x128] S64x1x128 0
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  bitsLt_bf16_f32 : FTy.bits .bf16 < FTy.bits .f32
  broadcasts_S1x128_S8192x128 : S1x128.Broadcasts S8192x128
  shapeCasts_S8192x128_S1x8192x128 : S8192x128.ShapeCasts S1x8192x128
  slices_S64x8192x128_S32x8192x128_0_0_0 : S64x8192x128.Slices ![0, 0, 0] S32x8192x128
  shapeCasts_S32x8192x128_S262144x128 : S32x8192x128.ShapeCasts S262144x128
  slices_S64x8192x128_S32x8192x128_32_0_0 : S64x8192x128.Slices ![32, 0, 0] S32x8192x128
  bcast_S_S262144x128 : S_.BroadcastsInDim S262144x128 (![] : Fin 0 → Fin S262144x128.rank)
  slices_S66x128x128_S1x128x128_0_0_0 : S66x128x128.Slices ![0, 0, 0] S1x128x128
  slices_S66x128_S1x128_0_0 : S66x128.Slices ![0, 0] S1x128
  shapeCasts_S1x128_S128 : S1x128.ShapeCasts S128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S4096x128 : S4096x128.ShapeCasts S4096x128
  gather_S262144x128_S262144x1_S262144x128_1_0_n_n_0_1_1128_wf : GatherDims.WF S262144x128 S262144x1 S262144x128 [1] [0] [] [0] [] 1 ![1, 128]
  dot_S8192x128_S128x128_S8192x128_1_0_0_1_n_n_wf : DotDims.WF S8192x128 S128x128 S8192x128 [1] [0] [0] [1] [] []
  scatter_S262144x128_S262144x1_S262144x128_1_0_0_1_wf : ScatterDims.WF S262144x128 S262144x1 S262144x128 [1] [0] [0] 1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S64x8192x128.size a
  hwx0_0 : ∀ i : grid0.Coords, EltTy.bits .f32 = 32 ∨ (Rect.block (s := S64x8192x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S64x128x128.size a
  hwx0_1 : ∀ i : grid0.Coords, EltTy.bits .f32 = 32 ∨ (Rect.block (s := S64x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x128.size a ≤ S64x8192x128.size a
  hwx0_3 : ∀ i : grid0.Coords, EltTy.bits .f32 = 32 ∨ (Rect.block (s := S64x8192x128) S1x8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S262144x128.size a
  hwx1_0 : ∀ i : grid1.Coords, EltTy.bits .f32 = 32 ∨ (Rect.block (s := S262144x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S262144x128.size a
  hwx1_3 : ∀ i : grid1.Coords, EltTy.bits .f32 = 32 ∨ (Rect.block (s := S262144x128) S4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S262144x128.size a
  hwx1_4 : ∀ i : grid1.Coords, EltTy.bits .f32 = 32 ∨ (Rect.block (s := S262144x128) S4096x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S262144x128.size a
  hwx1_5 : ∀ i : grid1.Coords, EltTy.bits .f32 = 32 ∨ (Rect.block (s := S262144x128) S4096x128.size (cc1_transform_5 i) (hinb1_5 i)).WholeWords (EltTy.packing .f32)

variable [Facts₀]

def gather_S262144x128_S262144x1_S262144x128_1_0_n_n_0_1_1128 : GatherDims S262144x128 S262144x1 S262144x128 where
  offsetDims := [1]
  collapsedSliceDims := [0]
  operandBatchingDims := []
  startIndicesBatchingDims := []
  startIndexMap := [0]
  indexVectorDim := 1
  sliceSizes := ![1, 128]
  wf := gather_S262144x128_S262144x1_S262144x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S262144x128_S262144x1_S262144x128_1_0_0_1 : ScatterDims S262144x128 S262144x1 S262144x128 where
  updateWindowDims := [1]
  insertedWindowDims := [0]
  scatterDimsToOperandDims := [0]
  indexVectorDim := 1
  wf := scatter_S262144x128_S262144x1_S262144x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v22) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S4096x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S4096x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S262144x128 : Shape := ⟨2, ![262144, 128]⟩
abbrev S66x128x128 : Shape := ⟨3, ![66, 128, 128]⟩
abbrev S66x128 : Shape := ⟨2, ![66, 128]⟩
abbrev S262144 : Shape := ⟨1, ![262144]⟩
abbrev S32x128x128 : Shape := ⟨3, ![32, 128, 128]⟩
abbrev S32x128 : Shape := ⟨2, ![32, 128]⟩
abbrev S_ : Shape := ⟨0, ![]⟩
abbrev S262144x1 : Shape := ⟨2, ![262144, 1]⟩
abbrev S32x8192x128 : Shape := ⟨3, ![32, 8192, 128]⟩
abbrev S32x1x128 : Shape := ⟨3, ![32, 1, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 61
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S66x128x128, .f32⟩
  | .hbm, ⟨2, _⟩ => ⟨S66x128, .f32⟩
  | .hbm, ⟨3, _⟩ => ⟨S262144, .i32⟩
  | .hbm, ⟨4, _⟩ => ⟨S262144, .i32⟩
  | .hbm, ⟨5, _⟩ => ⟨S262144, .i32⟩
  | .hbm, ⟨6, _⟩ => ⟨S32x128x128, .f32⟩
  | .hbm, ⟨7, _⟩ => ⟨S32x128, .f32⟩
  | .hbm, ⟨8, _⟩ => ⟨S32x128x128, .f32⟩
  | .hbm, ⟨9, _⟩ => ⟨S32x128, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x128, .f32⟩
  | .hbm, ⟨19, _⟩ => ⟨S32x8192x128, .f32⟩
  | .hbm, ⟨20, _⟩ => ⟨S32x8192x128, .f32⟩
  | .hbm, ⟨21, _⟩ => ⟨S32x1x128, .f32⟩
  | .hbm, ⟨22, _⟩ => ⟨S32x8192x128, .f32⟩
  | .hbm, ⟨23, _⟩ => ⟨S32x8192x128, .f32⟩
  | .hbm, ⟨24, _⟩ => ⟨S262144x128, .f32⟩
  | .hbm, ⟨25, _⟩ => ⟨S_, .f32⟩
  | .hbm, ⟨26, _⟩ => ⟨S262144x128, .f32⟩
  | .hbm, ⟨27, _⟩ => ⟨S262144x1, .i32⟩
  | .hbm, ⟨28, _⟩ => ⟨S262144x128, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x128, .f32⟩
  | .hbm, ⟨38, _⟩ => ⟨S32x8192x128, .f32⟩
  | .hbm, ⟨39, _⟩ => ⟨S32x8192x128, .f32⟩
  | .hbm, ⟨40, _⟩ => ⟨S32x1x128, .f32⟩
  | .hbm, ⟨41, _⟩ => ⟨S32x8192x128, .f32⟩
  | .hbm, ⟨42, _⟩ => ⟨S32x8192x128, .f32⟩
  | .hbm, ⟨43, _⟩ => ⟨S262144x128, .f32⟩
  | .hbm, ⟨44, _⟩ => ⟨S_, .f32⟩
  | .hbm, ⟨45, _⟩ => ⟨S262144x128, .f32⟩
  | .hbm, ⟨46, _⟩ => ⟨S262144x1, .i32⟩
  | .hbm, ⟨47, _⟩ => ⟨S262144x128, .f32⟩
  | .hbm, ⟨48, _⟩ => ⟨S1x128x128, .f32⟩
  | .hbm, ⟨49, _⟩ => ⟨S128x128, .f32⟩
  | .hbm, ⟨50, _⟩ => ⟨S262144x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S262144x128, .f32⟩
  | .hbm, ⟨55, _⟩ => ⟨S262144x128, .f32⟩
  | .hbm, ⟨56, _⟩ => ⟨S262144x128, .f32⟩
  | .hbm, ⟨57, _⟩ => ⟨S262144x128, .f32⟩
  | .hbm, ⟨58, _⟩ => ⟨S_, .f32⟩
  | .hbm, ⟨59, _⟩ => ⟨S262144x128, .f32⟩
  | .hbm, ⟨60, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_cst : Ref sig .tc := ⟨.hbm, 58, rfl⟩
abbrev main_call0_v0 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  slices_S66x128x128_S32x128x128_2_0_0 : S66x128x128.Slices ![2, 0, 0] S32x128x128
  slices_S66x128_S32x128_2_0 : S66x128.Slices ![2, 0] S32x128
  slices_S66x128x128_S32x128x128_34_0_0 : S66x128x128.Slices ![34, 0, 0] S32x128x128
  slices_S66x128_S32x128_34_0 : S66x128.Slices ![34, 0] S32x128
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x128_S32x8192x128 : S262144x128.ShapeCasts S32x8192x128
  bcast_S32x128_S32x1x128_0_2 : S32x128.BroadcastsInDim S32x1x128 (![0, 2] : Fin 2 → Fin S32x1x128.rank)
  bcast_S32x1x128_S32x8192x128_0_1_2 : S32x1x128.BroadcastsInDim S32x8192x128 (![0, 1, 2] : Fin 3 → Fin S32x8192x128.rank)
  shapeCasts_S32x8192x128_S262144x128 : S32x8192x128.ShapeCasts S262144x128
  bcast_S_S262144x128 : S_.BroadcastsInDim S262144x128 (![] : Fin 0 → Fin S262144x128.rank)
  slices_S66x128x128_S1x128x128_0_0_0 : S66x128x128.Slices ![0, 0, 0] S1x128x128
  shapeCasts_S1x128x128_S128x128 : S1x128x128.ShapeCasts S128x128
  slices_S66x128_S1x128_0_0 : S66x128.Slices ![0, 0] S1x128
  shapeCasts_S1x128_S128 : S1x128.ShapeCasts S128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  gather_S262144x128_S262144x1_S262144x128_1_0_n_n_0_1_1128_wf : GatherDims.WF S262144x128 S262144x1 S262144x128 [1] [0] [] [0] [] 1 ![1, 128]
  dot_S32x8192x128_S32x128x128_S32x8192x128_2_1_1_2_0_0_wf : DotDims.WF S32x8192x128 S32x128x128 S32x8192x128 [2] [1] [1] [2] [0] [0]
  scatter_S262144x128_S262144x1_S262144x128_1_0_0_1_wf : ScatterDims.WF S262144x128 S262144x1 S262144x128 [1] [0] [0] 1
  dot_S262144x128_S128x128_S262144x128_1_0_0_1_n_n_wf : DotDims.WF S262144x128 S128x128 S262144x128 [1] [0] [0] [1] [] []

variable [Facts₀]

def gather_S262144x128_S262144x1_S262144x128_1_0_n_n_0_1_1128 : GatherDims S262144x128 S262144x1 S262144x128 where
  offsetDims := [1]
  collapsedSliceDims := [0]
  operandBatchingDims := []
  startIndicesBatchingDims := []
  startIndexMap := [0]
  indexVectorDim := 1
  sliceSizes := ![1, 128]
  wf := gather_S262144x128_S262144x1_S262144x128_1_0_n_n_0_1_1128_wf
def dot_S32x8192x128_S32x128x128_S32x8192x128_2_1_1_2_0_0 : DotDims S32x8192x128 S32x128x128 S32x8192x128 where
  lhsContracting := [2]
  rhsContracting := [1]
  lhsNonContracting := [1]
  rhsNonContracting := [2]
  lhsBatch := [0]
  rhsBatch := [0]
  wf := dot_S32x8192x128_S32x128x128_S32x8192x128_2_1_1_2_0_0_wf
def scatter_S262144x128_S262144x1_S262144x128_1_0_0_1 : ScatterDims S262144x128 S262144x1 S262144x128 where
  updateWindowDims := [1]
  insertedWindowDims := [0]
  scatterDimsToOperandDims := [0]
  indexVectorDim := 1
  wf := scatter_S262144x128_S262144x1_S262144x128_1_0_0_1_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Payloads.lean ====
/-
  The two kernel bodies' stored values read at an index, at the ideal values.
  The first body stores, at row `e` and column `o` of its one group, the product of row `e` of its row block with column
  `o` of its 128 x 128 weight block, plus entry `o` of its bias row; the narrowing of both factors to bf16 before
  the product changes nothing over the extended reals. The second stores the larger of zero and that same
  product-plus-bias with the two aggregate blocks added one after the other.
-/
import proofs.«125129_j37898791420464_1_alg».proof.Proof.Gen.KernelIdeal.Skeleton
import proofs.«125129_j37898791420464_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx

/-- The first body's stored block at `(0, e, o)`. -/
theorem pay0_apply (x0 : Vec Ideal S1x8192x128 .f32) (x1 : Vec Ideal S1x128x128 .f32) (x2 : Vec Ideal S1x1x128 .f32)
    (z : Fin 1) (e : Fin 8192) (o : Fin 128) :
    k0_pay1 (F := Ideal) x0 x1 x2 (ix3 z e o)
      = (∑ k : Fin 128, x0 (ix3 (0 : Fin 1) e k) * x1 (ix3 (0 : Fin 1) k o)) + x2 (ix3 (0 : Fin 1) (0 : Fin 1) o) := by
  unfold k0_pay1
  rw [shapeCast_ab_1ab_apply, addf_apply, Cert.PlainDot.matmul_zero_apply dot_S8192x128_S128x128_S8192x128_1_0_0_1_n_n rfl, broadcastTo_1b_ab_apply, shapeCast_1ab_ab_apply]
  refine congrArg₂ (· + ·) (Finset.sum_congr rfl fun k _ => ?_) rfl
  rw [truncf_apply, truncf_apply, shapeCast_1ab_ab_apply, shapeCast_1ab_ab_apply]

/-- The second body's stored block at `(p, o)`. -/
theorem pay1_apply (x0 : Vec Ideal S4096x128 .f32) (x1 : Vec Ideal S128x128 .f32) (x2 : Vec Ideal S1x128 .f32)
    (x3 x4 : Vec Ideal S4096x128 .f32) (p : Fin 4096) (o : Fin 128) :
    k1_pay1 (F := Ideal) x0 x1 x2 x3 x4 (ix2 p o)
      = max ((((∑ k : Fin 128, x0 (ix2 p k) * x1 (ix2 k o)) + x2 (ix2 (0 : Fin 1) o)) + x3 (ix2 p o)) + x4 (ix2 p o))
          (Ideal.ofBits .f32 0x00000000#32) := by
  unfold k1_pay1
  rw [maximumf_apply, addf_apply, addf_apply, addf_apply, Cert.PlainDot.matmul_zero_apply dot_S4096x128_S128x128_S4096x128_1_0_0_1_n_n rfl, broadcastTo_1b_ab_apply,
    shapeCast_self, shapeCast_self, shapeCast_self, shapeCast_self]
  refine congrArg₂ max (congrArg₂ (· + ·) (congrArg₂ (· + ·) (congrArg₂ (· + ·) (Finset.sum_congr rfl fun k _ => ?_) rfl) rfl) rfl) rfl
  rw [truncf_apply, truncf_apply]

end Cert.KernelIdeal.Val

end
-- ==== Proof.Spec.lean ====
/-
  The two array functions this certificate is about, over literal shapes and the extended reals.

  `gemm X W B`: for each of 64 groups `g`, row `e` and output column `o`, the product of row `(g, e)` of `X`
  with column `o` of the group's 128 x 128 matrix `W g`, plus the group's bias `B (g, 0, o)`.

  `combine x w b f s`: for each row `r` and column `o`, the larger of zero and
  `((x r · w(·, o) + b(0, o)) + f(r, o)) + s(r, o)`, the sums taken in exactly that grouping.
-/
import Idealize.ShloMosaic.Lib.ValueIdx
import Idealize.ShloMosaic.PureOps.Ideal

noncomputable section

namespace Cert.Spec

open Idealize.ShloMosaic Idealize.ShloMosaic.ValueIdx

/-- Entry `(g, e, o)` of the grouped product with bias. -/
def gemmAt (X : FVec Ideal ⟨3, ![64, 8192, 128]⟩ .f32) (W : FVec Ideal ⟨3, ![64, 128, 128]⟩ .f32)
    (B : FVec Ideal ⟨3, ![64, 1, 128]⟩ .f32) (g : Fin 64) (e : Fin 8192) (o : Fin 128) : Ideal .f32 :=
  (∑ k : Fin 128, X (ix3 g e k) * W (ix3 g k o)) + B (ix3 g (0 : Fin 1) o)

/-- The grouped product with bias as one array. -/
def gemm (X : FVec Ideal ⟨3, ![64, 8192, 128]⟩ .f32) (W : FVec Ideal ⟨3, ![64, 128, 128]⟩ .f32)
    (B : FVec Ideal ⟨3, ![64, 1, 128]⟩ .f32) : FVec Ideal ⟨3, ![64, 8192, 128]⟩ .f32 :=
  fun i => gemmAt X W B (i 0) (i 1) (i 2)

/-- Entry `(r, o)` of the combined output. -/
def combineAt (x : FVec Ideal ⟨2, ![262144, 128]⟩ .f32) (w : FVec Ideal ⟨2, ![128, 128]⟩ .f32)
    (b : FVec Ideal ⟨2, ![1, 128]⟩ .f32) (f s : FVec Ideal ⟨2, ![262144, 128]⟩ .f32) (r : Fin 262144) (o : Fin 128) : Ideal .f32 :=
  max ((((∑ k : Fin 128, x (ix2 r k) * w (ix2 k o)) + b (ix2 (0 : Fin 1) o)) + f (ix2 r o)) + s (ix2 r o))
    (Ideal.ofBits .f32 0x00000000#32)

/-- The combined output as one array. -/
def combine (x : FVec Ideal ⟨2, ![262144, 128]⟩ .f32) (w : FVec Ideal ⟨2, ![128, 128]⟩ .f32)
    (b : FVec Ideal ⟨2, ![1, 128]⟩ .f32) (f s : FVec Ideal ⟨2, ![262144, 128]⟩ .f32) : FVec Ideal ⟨2, ![262144, 128]⟩ .f32 :=
  fun i => combineAt x w b f s (i 0) (i 1)

end Cert.Spec

end
-- ==== Proof.Region0.lean ====
/-
  What the first pallas_call leaves in its result array: point `t` of its 64-point grid writes back group `t`, the
  product of group `t`'s rows with group `t`'s weights plus group `t`'s bias, and the 64 groups tile the array; so the
  array ends as `Spec.gemm` of the three arrays the call finds.
-/
import proofs.«125129_j37898791420464_1_alg».proof.Proof.Gen.KernelIdeal.Frame
import proofs.«125129_j37898791420464_1_alg».proof.Proof.Payloads
import proofs.«125129_j37898791420464_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block access, as a constant function. -/
private theorem zero_off : (![0, 0, 0] : Fin 3 → Nat) = fun _ => 0 := funext fun a => by fin_cases a <;> rfl

/-- The printed index maps, decided once over the 64 grid points: every window's block index is (t, 0, 0). -/
private theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Point t's block of rows: its entry (z, e, k) is entry (t, e, k) of the row array. -/
private theorem rows_block (c : Dev nD) (t : Fin cfg0.N) (g : Fin 64) (hg : g.val = t.val)
    (z : Fin 1) (e : Fin 8192) (k : Fin 128) :
    (iblk0 (F := Ideal) V c 0 t : Vec Ideal S1x8192x128 .f32) (ix3 z e k)
      = (V c main_v22 : Vec Ideal S64x8192x128 .f32) (ix3 g e k) := by
  obtain ⟨h0, h1, h2, -⟩ := index_facts t
  show V c main_v22 (((cfg0.win 0).blk t).view.emb (ix3 z e k)) = V c main_v22 (ix3 g e k)
  refine congrArg _ (funext fun a => Fin.ext ?_)
  have hz : z.val < 1 := z.isLt
  match a with
  | ⟨0, _⟩ => show win0_0.index t (0 : Fin 3) * 1 + 1 * z.val = g.val; omega
  | ⟨1, _⟩ => show win0_0.index t (1 : Fin 3) * 8192 + 1 * e.val = e.val; omega
  | ⟨2, _⟩ => show win0_0.index t (2 : Fin 3) * 128 + 1 * k.val = k.val; omega

/-- Point t's block of weights: its entry (z, k, o) is entry (t, k, o) of the weight array. -/
private theorem weights_block (c : Dev nD) (t : Fin cfg0.N) (g : Fin 64) (hg : g.val = t.val)
    (z : Fin 1) (k : Fin 128) (o : Fin 128) :
    (iblk0 (F := Ideal) V c 1 t : Vec Ideal S1x128x128 .f32) (ix3 z k o)
      = (V c main_v23 : Vec Ideal S64x128x128 .f32) (ix3 g k o) := by
  obtain ⟨-, -, -, h0, h1, h2, -⟩ := index_facts t
  show V c main_v23 (((cfg0.win 1).blk t).view.emb (ix3 z k o)) = V c main_v23 (ix3 g k o)
  refine congrArg _ (funext fun a => Fin.ext ?_)
  have hz : z.val < 1 := z.isLt
  match a with
  | ⟨0, _⟩ => show win0_1.index t (0 : Fin 3) * 1 + 1 * z.val = g.val; omega
  | ⟨1, _⟩ => show win0_1.index t (1 : Fin 3) * 128 + 1 * k.val = k.val; omega
  | ⟨2, _⟩ => show win0_1.index t (2 : Fin 3) * 128 + 1 * o.val = o.val; omega

/-- Point t's bias row: its entry (z, y, o) is entry (t, 0, o) of the bias array. -/
private theorem bias_block (c : Dev nD) (t : Fin cfg0.N) (g : Fin 64) (hg : g.val = t.val)
    (z : Fin 1) (y : Fin 1) (o : Fin 128) :
    (iblk0 (F := Ideal) V c 2 t : Vec Ideal S1x1x128 .f32) (ix3 z y o)
      = (V c main_v24 : Vec Ideal S64x1x128 .f32) (ix3 g (0 : Fin 1) o) := by
  obtain ⟨-, -, -, -, -, -, h0, h1, h2, -⟩ := index_facts t
  show V c main_v24 (((cfg0.win 2).blk t).view.emb (ix3 z y o)) = V c main_v24 (ix3 g (0 : Fin 1) o)
  refine congrArg _ (funext fun a => Fin.ext ?_)
  have hz : z.val < 1 := z.isLt
  have hy : y.val < 1 := y.isLt
  match a with
  | ⟨0, _⟩ => show win0_2.index t (0 : Fin 3) * 1 + 1 * z.val = g.val; omega
  | ⟨1, _⟩ => show win0_2.index t (1 : Fin 3) * 1 + 1 * y.val = 0; omega
  | ⟨2, _⟩ => show win0_2.index t (2 : Fin 3) * 128 + 1 * o.val = o.val; omega

/-- Where entry (z, e, o) of point t's result block sits in the result array: at (t, e, o). -/
private theorem result_block_emb (t : Fin cfg0.N) (g : Fin 64) (hg : g.val = t.val)
    (z : Fin 1) (e : Fin 8192) (o : Fin 128) :
    ((cfg0.win 3).blk t).view.emb (ix3 z e o : S1x8192x128.Idx) = (ix3 g e o : S64x8192x128.Idx) := by
  obtain ⟨-, -, -, -, -, -, -, -, -, h0, h1, h2⟩ := index_facts t
  refine funext fun a => Fin.ext ?_
  have hz : z.val < 1 := z.isLt
  match a with
  | ⟨0, _⟩ => show win0_3.index t (0 : Fin 3) * 1 + 1 * z.val = g.val; omega
  | ⟨1, _⟩ => show win0_3.index t (1 : Fin 3) * 8192 + 1 * e.val = e.val; omega
  | ⟨2, _⟩ => show win0_3.index t (2 : Fin 3) * 128 + 1 * o.val = o.val; omega

/-- What point t writes back is block t of the grouped product with bias of the arrays the call finds. -/
private theorem flushed_eq (c : Dev nD) (t : Fin cfg0.N) :
    (dat0 (F := Ideal) V c).flushed 3 t
      = ((cfg0.win 3).blk t).view.read (Elt Ideal) (Cert.Spec.gemm (V c main_v22) (V c main_v23) (V c main_v24)) := by
  show (cfg0.win 3).cut (grid0.coords t) ((dat0 V c).after 3 t) = _
  rw [after0_3]
  unfold out0_3
  rw [View.canon_unit_zero zero_off]
  simp only [View.ld_unit_zero (S := S1x8192x128) zero_off, View.ld_unit_zero (S := S1x128x128) zero_off,
    View.ld_unit_zero (S := S1x1x128) zero_off]
  show (fun j : S1x8192x128.Idx => k0_pay1 (F := Ideal) (iblk0 V c 0 t) (iblk0 V c 1 t) (iblk0 V c 2 t) j)
    = fun j : S1x8192x128.Idx => Cert.Spec.gemm (V c main_v22) (V c main_v23) (V c main_v24) (((cfg0.win 3).blk t).view.emb j)
  funext j
  obtain ⟨z, e, o, rfl⟩ : ∃ (z : Fin 1) (e : Fin 8192) (o : Fin 128), j = ix3 z e o := ⟨j 0, j 1, j 2, eq_ix3 j⟩
  have ht : t.val < 64 := t.isLt
  refine (pay0_apply (iblk0 V c 0 t) (iblk0 V c 1 t) (iblk0 V c 2 t) z e o).trans ?_
  rw [result_block_emb t ⟨t.val, ht⟩ rfl z e o]
  show _ = Cert.Spec.gemmAt (V c main_v22) (V c main_v23) (V c main_v24) ⟨t.val, ht⟩ e o
  unfold Cert.Spec.gemmAt
  rw [bias_block V c t ⟨t.val, ht⟩ rfl]
  refine congrArg (· + _) (Finset.sum_congr rfl fun k _ => ?_)
  rw [rows_block V c t ⟨t.val, ht⟩ rfl, weights_block V c t ⟨t.val, ht⟩ rfl]

/-- An index of the result array is in point t's block iff each coordinate is in the block's range on its axis. -/
private theorem mem_blk (t : Fin cfg0.N) (i : S64x8192x128.Idx) :
    i ∈ ((cfg0.win 3).blk t).view.set
      ↔ ∀ a : Fin 3, win0_3.index t a * S1x8192x128.size a ≤ (i a).val
          ∧ (i a).val < win0_3.index t a * S1x8192x128.size a + S1x8192x128.size a := by
  show i ∈ ((View.whole main_v25).slice (win0_3.rect t)).set ↔ _
  rw [View.set_slice_whole, Rect.mem_set_unit]
  exact Iff.rfl

/-- The 64 blocks tile the result array: index (g, e, o) is in the block of point g, which writes back. -/
private theorem cover (i : S64x8192x128.Idx) :
    ∃ t : Fin cfg0.N, (cfg0.win 3).flush t = true ∧ i ∈ ((cfg0.win 3).blk t).view.set := by
  have h0 : (i 0).val < 64 := (i 0).isLt
  have h1 : (i 1).val < 8192 := (i 1).isLt
  have h2 : (i 2).val < 128 := (i 2).isLt
  obtain ⟨-, -, -, -, -, -, -, -, -, e0, e1, e2⟩ := index_facts ⟨(i 0).val, h0⟩
  have e0' : win0_3.index ⟨(i 0).val, h0⟩ (0 : Fin 3) = (i 0).val := e0
  refine ⟨⟨(i 0).val, h0⟩, flush0_3 _, ?_⟩
  rw [mem_blk]
  intro a
  match a with
  | ⟨0, _⟩ =>
    show win0_3.index ⟨(i 0).val, h0⟩ (0 : Fin 3) * 1 ≤ (i 0).val
      ∧ (i 0).val < win0_3.index ⟨(i 0).val, h0⟩ (0 : Fin 3) * 1 + 1
    omega
  | ⟨1, _⟩ =>
    show win0_3.index ⟨(i 0).val, h0⟩ (1 : Fin 3) * 8192 ≤ (i 1).val
      ∧ (i 1).val < win0_3.index ⟨(i 0).val, h0⟩ (1 : Fin 3) * 8192 + 8192
    omega
  | ⟨2, _⟩ =>
    show win0_3.index ⟨(i 0).val, h0⟩ (2 : Fin 3) * 128 ≤ (i 2).val
      ∧ (i 2).val < win0_3.index ⟨(i 0).val, h0⟩ (2 : Fin 3) * 128 + 128
    omega

/-- The first call's result array after the call, as one function of the arrays it finds. -/
theorem final0 (c : Dev nD) :
    (dat0 (F := Ideal) V c).arrAt 3 cfg0.N = Cert.Spec.gemm (V c main_v22) (V c main_v23) (V c main_v24) :=
  (dat0 (F := Ideal) V c).arrAt_eq_of_cover 3 (Cert.Spec.gemm (V c main_v22) (V c main_v23) (V c main_v24))
    (fun t _ => flushed_eq V c t) cover

end Cert.KernelIdeal.Val

end
-- ==== Proof.Region1.lean ====
/-
  What the second pallas_call leaves in its result array: point `t` of its 64-point grid writes back rows
  4096 t .. 4096 t + 4095, each entry the larger of zero and the row's product with the whole self weight plus the
  self bias plus the two aggregates' entries; the 64 row blocks tile the array, so it ends as `Spec.combine` of the
  five arrays the call finds.
-/
import proofs.«125129_j37898791420464_1_alg».proof.Proof.Gen.KernelIdeal.Frame
import proofs.«125129_j37898791420464_1_alg».proof.Proof.Payloads
import proofs.«125129_j37898791420464_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access. -/
private theorem zeroOff : (![0, 0] : Fin 2 → Nat) = fun _ => 0 := funext fun a => by fin_cases a <;> rfl

/-- The printed index maps over the 64 grid points: the row-blocked windows sit at block `(t, 0)`, the weight and the
    bias at block `(0, 0)`. -/
private theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of the row block of the input at point `t` is row `4096 t + p` of the input. -/
private theorem inputBlock_apply (c : Dev nD) (t : Fin cfg1.N) (p : Fin 4096) (o : Fin 128) (r : Fin 262144)
    (hr : r.val = t.val * 4096 + p.val) :
    (iblk1 (F := Ideal) V c 0 t : Vec Ideal S4096x128 .f32) (ix2 p o)
      = (V c main_arg0 : S262144x128.Idx → Ideal .f32) (ix2 r o) := by
  unfold iblk1
  rw [View.read_apply]
  show V c main_arg0 _ = V c main_arg0 _
  congr 1
  funext a
  apply Fin.ext
  match a with
  | ⟨0, _⟩ => show win1_0.index t (0 : Fin 2) * 4096 + 1 * p.val = r.val; rw [(blockIndex t).1, hr]; omega
  | ⟨1, _⟩ => show win1_0.index t (1 : Fin 2) * 128 + 1 * o.val = o.val; rw [(blockIndex t).2.1]; omega

/-- The weight window's one block is the whole weight. -/
private theorem weightBlock_apply (c : Dev nD) (t : Fin cfg1.N) (k : Fin 128) (o : Fin 128) :
    (iblk1 (F := Ideal) V c 1 t : Vec Ideal S128x128 .f32) (ix2 k o)
      = (V c main_v37 : S128x128.Idx → Ideal .f32) (ix2 k o) := by
  unfold iblk1
  rw [View.read_apply]
  show V c main_v37 _ = V c main_v37 _
  congr 1
  funext a
  apply Fin.ext
  match a with
  | ⟨0, _⟩ => show win1_1.index t (0 : Fin 2) * 128 + 1 * k.val = k.val; rw [(blockIndex t).2.2.1]; omega
  | ⟨1, _⟩ => show win1_1.index t (1 : Fin 2) * 128 + 1 * o.val = o.val; rw [(blockIndex t).2.2.2.1]; omega

/-- The bias window's one block is the whole bias row. -/
private theorem biasBlock_apply (c : Dev nD) (t : Fin cfg1.N) (z : Fin 1) (o : Fin 128) :
    (iblk1 (F := Ideal) V c 2 t : Vec Ideal S1x128 .f32) (ix2 z o)
      = (V c main_v40 : S1x128.Idx → Ideal .f32) (ix2 z o) := by
  unfold iblk1
  rw [View.read_apply]
  show V c main_v40 _ = V c main_v40 _
  congr 1
  funext a
  apply Fin.ext
  match a with
  | ⟨0, _⟩ => show win1_2.index t (0 : Fin 2) * 1 + 1 * z.val = z.val; rw [(blockIndex t).2.2.2.2.1]; omega
  | ⟨1, _⟩ => show win1_2.index t (1 : Fin 2) * 128 + 1 * o.val = o.val; rw [(blockIndex t).2.2.2.2.2.1]; omega

/-- Row `p` of the first aggregate's row block at point `t` is its row `4096 t + p`. -/
private theorem firstAggBlock_apply (c : Dev nD) (t : Fin cfg1.N) (p : Fin 4096) (o : Fin 128) (r : Fin 262144)
    (hr : r.val = t.val * 4096 + p.val) :
    (iblk1 (F := Ideal) V c 3 t : Vec Ideal S4096x128 .f32) (ix2 p o)
      = (V c main_v32 : S262144x128.Idx → Ideal .f32) (ix2 r o) := by
  unfold iblk1
  rw [View.read_apply]
  show V c main_v32 _ = V c main_v32 _
  congr 1
  funext a
  apply Fin.ext
  match a with
  | ⟨0, _⟩ => show win1_3.index t (0 : Fin 2) * 4096 + 1 * p.val = r.val; rw [(blockIndex t).2.2.2.2.2.2.1, hr]; omega
  | ⟨1, _⟩ => show win1_3.index t (1 : Fin 2) * 128 + 1 * o.val = o.val; rw [(blockIndex t).2.2.2.2.2.2.2.1]; omega

/-- Row `p` of the second aggregate's row block at point `t` is its row `4096 t + p`. -/
private theorem secondAggBlock_apply (c : Dev nD) (t : Fin cfg1.N) (p : Fin 4096) (o : Fin 128) (r : Fin 262144)
    (hr : r.val = t.val * 4096 + p.val) :
    (iblk1 (F := Ideal) V c 4 t : Vec Ideal S4096x128 .f32) (ix2 p o)
      = (V c main_v35 : S262144x128.Idx → Ideal .f32) (ix2 r o) := by
  unfold iblk1
  rw [View.read_apply]
  show V c main_v35 _ = V c main_v35 _
  congr 1
  funext a
  apply Fin.ext
  match a with
  | ⟨0, _⟩ => show win1_4.index t (0 : Fin 2) * 4096 + 1 * p.val = r.val; rw [(blockIndex t).2.2.2.2.2.2.2.2.1, hr]; omega
  | ⟨1, _⟩ => show win1_4.index t (1 : Fin 2) * 128 + 1 * o.val = o.val; rw [(blockIndex t).2.2.2.2.2.2.2.2.2.1]; omega

/-- What point `t` writes back is block `t` of the combined output. -/
private theorem flushed_eq (c : Dev nD) (t : Fin cfg1.N) :
    (dat1 (F := Ideal) V c).flushed 5 t = ((cfg1.win 5).blk t).view.read (Elt Ideal)
      (Cert.Spec.combine (V c main_arg0) (V c main_v37) (V c main_v40) (V c main_v32) (V c main_v35)) := by
  show (cfg1.win 5).cut (grid1.coords t) ((dat1 (F := Ideal) V c).after 5 t) = _
  rw [after1_5]
  unfold out1_5
  rw [View.canon_unit_zero zeroOff]
  simp only [View.ld_unit_zero (S := S4096x128) zeroOff, View.ld_unit_zero (S := S128x128) zeroOff,
    View.ld_unit_zero (S := S1x128) zeroOff]
  funext j
  obtain ⟨p, o, rfl⟩ : ∃ (p : Fin 4096) (o : Fin 128), j = ix2 p o := ⟨j 0, j 1, eq_ix2 j⟩
  have ht : t.val < 64 := t.isLt
  have hp : p.val < 4096 := p.isLt
  have hr : t.val * 4096 + p.val < 262144 := by omega
  have hemb : ((cfg1.win 5).blk t).view.emb (ix2 p o) = ix2 (⟨t.val * 4096 + p.val, hr⟩ : Fin 262144) o := by
    funext a
    apply Fin.ext
    match a with
    | ⟨0, _⟩ => show win1_5.index t (0 : Fin 2) * 4096 + 1 * p.val = t.val * 4096 + p.val; rw [(blockIndex t).2.2.2.2.2.2.2.2.2.2.1]; omega
    | ⟨1, _⟩ => show win1_5.index t (1 : Fin 2) * 128 + 1 * o.val = o.val; rw [(blockIndex t).2.2.2.2.2.2.2.2.2.2.2]; omega
  show k1_pay1 (F := Ideal) (iblk1 V c 0 t) (iblk1 V c 1 t) (iblk1 V c 2 t) (iblk1 V c 3 t) (iblk1 V c 4 t) (ix2 p o)
    = Cert.Spec.combine (V c main_arg0) (V c main_v37) (V c main_v40) (V c main_v32) (V c main_v35)
        (((cfg1.win 5).blk t).view.emb (ix2 p o))
  rw [hemb]
  show _ = Cert.Spec.combineAt (V c main_arg0) (V c main_v37) (V c main_v40) (V c main_v32) (V c main_v35)
    (⟨t.val * 4096 + p.val, hr⟩ : Fin 262144) o
  refine (pay1_apply _ _ _ _ _ p o).trans ?_
  unfold Cert.Spec.combineAt
  simp only [inputBlock_apply V c t p _ (⟨t.val * 4096 + p.val, hr⟩ : Fin 262144) rfl, weightBlock_apply V c t,
    biasBlock_apply V c t, firstAggBlock_apply V c t p o (⟨t.val * 4096 + p.val, hr⟩ : Fin 262144) rfl,
    secondAggBlock_apply V c t p o (⟨t.val * 4096 + p.val, hr⟩ : Fin 262144) rfl]

/-- An index of the result array is in point `t`'s block iff each coordinate is in the block's range on its axis. -/
private theorem mem_block (t : Fin cfg1.N) (i : S262144x128.Idx) :
    i ∈ ((cfg1.win 5).blk t).view.set ↔ ∀ a : Fin 2, win1_5.index t a * S4096x128.size a ≤ (i a).val
      ∧ (i a).val < win1_5.index t a * S4096x128.size a + S4096x128.size a := by
  show i ∈ ((View.whole main_v41).slice (win1_5.rect t)).set ↔ _
  rw [View.set_slice_whole, Rect.mem_set_unit]
  exact Iff.rfl

/-- The 64 row blocks tile the result array: row `r` lies in the block of point `r / 4096`. -/
private theorem covered (i : S262144x128.Idx) :
    ∃ t : Fin cfg1.N, (cfg1.win 5).flush t = true ∧ i ∈ ((cfg1.win 5).blk t).view.set := by
  have hi0 : (i 0).val < 262144 := (i 0).isLt
  have hi1 : (i 1).val < 128 := (i 1).isLt
  have hq : (i 0).val / 4096 < 64 := by omega
  refine ⟨(⟨(i 0).val / 4096, hq⟩ : Fin cfg1.N), flush1_5 _, ?_⟩
  rw [mem_block]
  obtain ⟨-, -, -, -, -, -, -, -, -, -, e0, e1⟩ := blockIndex (⟨(i 0).val / 4096, hq⟩ : Fin cfg1.N)
  intro a
  match a with
  | ⟨0, _⟩ =>
    show win1_5.index (⟨(i 0).val / 4096, hq⟩ : Fin cfg1.N) (0 : Fin 2) * 4096 ≤ (i 0).val
      ∧ (i 0).val < win1_5.index (⟨(i 0).val / 4096, hq⟩ : Fin cfg1.N) (0 : Fin 2) * 4096 + 4096
    rw [e0]
    show (i 0).val / 4096 * 4096 ≤ (i 0).val ∧ (i 0).val < (i 0).val / 4096 * 4096 + 4096
    omega
  | ⟨1, _⟩ =>
    show win1_5.index (⟨(i 0).val / 4096, hq⟩ : Fin cfg1.N) (1 : Fin 2) * 128 ≤ (i 1).val
      ∧ (i 1).val < win1_5.index (⟨(i 0).val / 4096, hq⟩ : Fin cfg1.N) (1 : Fin 2) * 128 + 128
    rw [e1]
    omega

/-- The second call's result array after the call, as one function of the arrays it finds. -/
theorem final1 (c : Dev nD) :
    (dat1 (F := Ideal) V c).arrAt 5 cfg1.N
      = Cert.Spec.combine (V c main_arg0) (V c main_v37) (V c main_v40) (V c main_v32) (V c main_v35) := by
  exact (dat1 (F := Ideal) V c).arrAt_eq_of_cover 5
    (Cert.Spec.combine (V c main_arg0) (V c main_v37) (V c main_v40) (V c main_v32) (V c main_v35))
    (fun t _ => flushed_eq V c t) (fun i => covered i)

end Cert.KernelIdeal.Val

end
-- ==== Proof.KTerms.lean ====
/-
  The host-side values of the kernel's program, named: what @main computes outside its two pallas_calls, each as one
  function of the argument arrays.
  `xRows x a`: the rows of `x` picked by the index array `a` (a negative index counted from the end), laid out as 32 groups
  of 8192 rows. `xcat`, `wcat`, `bcat`: the first call's three operands, each the forward half followed by the reversed
  half along the group axis (weights 2..33 then 34..65). `msgHalf off`: 32 consecutive groups of the first call's result from
  group `off 0`, laid out again as 262144 rows. `agg a u`: the rows of `u` added into a zero array at the rows `a` names.
  `w0`, `b0`: the self weight and bias (slot 0) as the second call takes them.
-/
import proofs.«125129_j37898791420464_1_alg».proof.KernelIdeal
import proofs.«125129_j37898791420464_1_alg».proof.Proof.Gen.KernelIdeal

noncomputable section

namespace Cert.KernelIdeal.Val

open Cert.KernelIdeal Cert.KernelIdeal.Facts₀ Idealize.ShloMosaic

variable {F : FTy → Type} [FloatOps F]

/-- An index array with every negative entry moved up by the row count, as a column. -/
def normIdx (a : (⟨S262144, .i32⟩ : BufTy).Contents (Elt F)) : (⟨S262144x1, .i32⟩ : BufTy).Contents (Elt F) :=
  broadcastInDim S262144x1 ![0] bcast_S262144_S262144x1_0
    (select (cmpi .slt a (broadcastInDim S262144 ![] bcast_S_S262144 (constantI S_ 32 0#32)))
      (addi a (broadcastInDim S262144 ![] bcast_S_S262144 (constantI S_ 32 262144#32))) a)

/-- The rows of `x` the index array picks, as 32 groups of 8192 rows. -/
def xRows (x : (⟨S262144x128, .f32⟩ : BufTy).Contents (Elt F)) (a : (⟨S262144, .i32⟩ : BufTy).Contents (Elt F)) :
    (⟨S32x8192x128, .f32⟩ : BufTy).Contents (Elt F) :=
  shapeCast _ (Host.gather gather_S262144x128_S262144x1_S262144x128_1_0_n_n_0_1_1128 x (normIdx (F := F) a)) shapeCasts_S262144x128_S32x8192x128

/-- The first call's row operand: the rows picked by `ag`, then those picked by `ad`. -/
def xcat (x : (⟨S262144x128, .f32⟩ : BufTy).Contents (Elt F)) (ag ad : (⟨S262144, .i32⟩ : BufTy).Contents (Elt F)) :
    (⟨S64x8192x128, .f32⟩ : BufTy).Contents (Elt F) :=
  concatenate S64x8192x128 0 [⟨S32x8192x128, xRows x ag⟩, ⟨S32x8192x128, xRows x ad⟩] concatenates_S32x8192x128_S32x8192x128_S64x8192x128_d0

/-- The first call's weight operand: slots 2..33, then slots 34..65. -/
def wcat (w : (⟨S66x128x128, .f32⟩ : BufTy).Contents (Elt F)) : (⟨S64x128x128, .f32⟩ : BufTy).Contents (Elt F) :=
  concatenate S64x128x128 0 [⟨S32x128x128, extractStridedSlice S32x128x128 ![2, 0, 0] w slices_S66x128x128_S32x128x128_2_0_0⟩,
    ⟨S32x128x128, extractStridedSlice S32x128x128 ![34, 0, 0] w slices_S66x128x128_S32x128x128_34_0_0⟩] concatenates_S32x128x128_S32x128x128_S64x128x128_d0

/-- The first call's bias operand: slots 2..33, then slots 34..65, each as one row. -/
def bcat (b : (⟨S66x128, .f32⟩ : BufTy).Contents (Elt F)) : (⟨S64x1x128, .f32⟩ : BufTy).Contents (Elt F) :=
  concatenate S64x1x128 0 [⟨S32x1x128, shapeCast S32x1x128 (extractStridedSlice S32x128 ![2, 0] b slices_S66x128_S32x128_2_0) shapeCasts_S32x128_S32x1x128⟩,
    ⟨S32x1x128, shapeCast S32x1x128 (extractStridedSlice S32x128 ![34, 0] b slices_S66x128_S32x128_34_0) shapeCasts_S32x128_S32x1x128⟩] concatenates_S32x1x128_S32x1x128_S64x1x128_d0

/-- Groups 0..31 of the first call's result, as 262144 rows. -/
def msgLo (y : (⟨S64x8192x128, .f32⟩ : BufTy).Contents (Elt F)) : (⟨S262144x128, .f32⟩ : BufTy).Contents (Elt F) :=
  shapeCast S262144x128 (extractStridedSlice S32x8192x128 ![0, 0, 0] y slices_S64x8192x128_S32x8192x128_0_0_0) shapeCasts_S32x8192x128_S262144x128

/-- Groups 32..63 of the first call's result, as 262144 rows. -/
def msgHi (y : (⟨S64x8192x128, .f32⟩ : BufTy).Contents (Elt F)) : (⟨S262144x128, .f32⟩ : BufTy).Contents (Elt F) :=
  shapeCast S262144x128 (extractStridedSlice S32x8192x128 ![32, 0, 0] y slices_S64x8192x128_S32x8192x128_32_0_0) shapeCasts_S32x8192x128_S262144x128

/-- The rows of `u` added into a zero array at the rows the index array names. -/
def agg (a : (⟨S262144, .i32⟩ : BufTy).Contents (Elt F)) (u : (⟨S262144x128, .f32⟩ : BufTy).Contents (Elt F)) :
    (⟨S262144x128, .f32⟩ : BufTy).Contents (Elt F) :=
  Host.scatterAdd scatter_S262144x128_S262144x1_S262144x128_1_0_0_1
    (broadcastInDim S262144x128 ![] bcast_S_S262144x128 (constant (F := F) S_ .f32 0x00000000#32))
    (broadcastInDim S262144x1 ![0] bcast_S262144_S262144x1_0 a) u

/-- The self weight: slot 0 as a 128 x 128 matrix. -/
def w0 (w : (⟨S66x128x128, .f32⟩ : BufTy).Contents (Elt F)) : (⟨S128x128, .f32⟩ : BufTy).Contents (Elt F) :=
  shapeCast S128x128 (extractStridedSlice S1x128x128 ![0, 0, 0] w slices_S66x128x128_S1x128x128_0_0_0) shapeCasts_S1x128x128_S128x128

/-- The self bias: slot 0 as one row. -/
def b0 (b : (⟨S66x128, .f32⟩ : BufTy).Contents (Elt F)) : (⟨S1x128, .f32⟩ : BufTy).Contents (Elt F) :=
  shapeCast S1x128 (shapeCast S128 (extractStridedSlice S1x128 ![0, 0] b slices_S66x128_S1x128_0_0) shapeCasts_S1x128_S128) shapeCasts_S128_S1x128

end Cert.KernelIdeal.Val

end
-- ==== Proof.HostReads.lean ====
/-
  The kernel program's host operations read back: the contents of each array a pallas_call takes, at the moment the
  call is entered, as the named host-side function (Proof/KTerms.lean) of the argument arrays as launched — and, for the
  second call's two aggregates, of the first call's result array as the first call leaves it.
-/
import proofs.«125129_j37898791420464_1_alg».proof.Proof.Gen.KernelIdeal.Frame
import proofs.«125129_j37898791420464_1_alg».proof.Proof.KTerms
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- No host operation before the first call writes argument 0: at the first call's entry it is as launched. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Nor does the first call write argument 0: at the first call's exit it is as launched. -/
theorem W2_arg0 (c : Dev nD) : W2 m ρ c (Proc.devRef .tc main_arg0) = m ((c : Thread nD τ).loc main_arg0) :=
  (W2_of_ne m ρ c main_arg0 (by decide)).trans (W1_arg0 m ρ c)

/-- No host operation before the first call writes argument 1: at the first call's entry it is as launched. -/
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Nor does the first call write argument 1: at the first call's exit it is as launched. -/
theorem W2_arg1 (c : Dev nD) : W2 m ρ c (Proc.devRef .tc main_arg1) = m ((c : Thread nD τ).loc main_arg1) :=
  (W2_of_ne m ρ c main_arg1 (by decide)).trans (W1_arg1 m ρ c)

/-- No host operation before the first call writes argument 2: at the first call's entry it is as launched. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Nor does the first call write argument 2: at the first call's exit it is as launched. -/
theorem W2_arg2 (c : Dev nD) : W2 m ρ c (Proc.devRef .tc main_arg2) = m ((c : Thread nD τ).loc main_arg2) :=
  (W2_of_ne m ρ c main_arg2 (by decide)).trans (W1_arg2 m ρ c)

/-- No host operation before the first call writes argument 3: at the first call's entry it is as launched. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Nor does the first call write argument 3: at the first call's exit it is as launched. -/
theorem W2_arg3 (c : Dev nD) : W2 m ρ c (Proc.devRef .tc main_arg3) = m ((c : Thread nD τ).loc main_arg3) :=
  (W2_of_ne m ρ c main_arg3 (by decide)).trans (W1_arg3 m ρ c)

/-- No host operation before the first call writes argument 4: at the first call's entry it is as launched. -/
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Nor does the first call write argument 4: at the first call's exit it is as launched. -/
theorem W2_arg4 (c : Dev nD) : W2 m ρ c (Proc.devRef .tc main_arg4) = m ((c : Thread nD τ).loc main_arg4) :=
  (W2_of_ne m ρ c main_arg4 (by decide)).trans (W1_arg4 m ρ c)

/-- The first call's row operand when the call is entered. -/
theorem V1_v22 (c : Dev nD) : V1 m ρ c main_v22
    = xcat (F := F) (m ((c : Thread nD τ).loc main_arg0)) (m ((c : Thread nD τ).loc main_arg4)) (m ((c : Thread nD τ).loc main_arg3)) := by
  dsimp only [V1, W1, hostOps0]
  after_results_simp
  unfold xcat
  refine congrArg₂ (fun a b => concatenate S64x8192x128 0 [⟨S32x8192x128, a⟩, ⟨S32x8192x128, b⟩]
    concatenates_S32x8192x128_S32x8192x128_S64x8192x128_d0) ?_ ?_
  · after_results_simp
    rfl
  · after_results_simp
    rfl

/-- The first call's weight operand when the call is entered. -/
theorem V1_v23 (c : Dev nD) : V1 m ρ c main_v23 = wcat (F := F) (m ((c : Thread nD τ).loc main_arg1)) := by
  dsimp only [V1, W1, hostOps0]
  after_results
  rfl

/-- The first call's bias operand when the call is entered. -/
theorem V1_v24 (c : Dev nD) : V1 m ρ c main_v24 = bcat (F := F) (m ((c : Thread nD τ).loc main_arg2)) := by
  dsimp only [V1, W1, hostOps0]
  after_results
  rfl

/-- The second call's row operand is the first argument as launched. -/
theorem V3_arg0 (c : Dev nD) : V3 m ρ c main_arg0 = m ((c : Thread nD τ).loc main_arg0) := by
  dsimp only [V3, W3, hostOps1]
  after_results
  exact W2_arg0 m ρ c

/-- The second call's weight operand. -/
theorem V3_v37 (c : Dev nD) : V3 m ρ c main_v37 = w0 (F := F) (m ((c : Thread nD τ).loc main_arg1)) := by
  dsimp only [V3, W3, hostOps1]
  after_results
  rw [W2_arg1]
  rfl

/-- The second call's bias operand. -/
theorem V3_v40 (c : Dev nD) : V3 m ρ c main_v40 = b0 (F := F) (m ((c : Thread nD τ).loc main_arg2)) := by
  dsimp only [V3, W3, hostOps1]
  after_results
  rw [W2_arg2]
  rfl

/-- The forward aggregate, from the first call's result array as the first call leaves it. -/
theorem V3_v32 (c : Dev nD) : V3 m ρ c main_v32
    = agg (F := F) (m ((c : Thread nD τ).loc main_arg3)) (msgLo (F := F) (W2 m ρ c (Proc.devRef .tc main_v25))) := by
  dsimp only [V3, W3, hostOps1]
  after_results
  rw [W2_arg3]
  rfl

/-- The reversed aggregate, likewise. -/
theorem V3_v35 (c : Dev nD) : V3 m ρ c main_v35
    = agg (F := F) (m ((c : Thread nD τ).loc main_arg4)) (msgHi (F := F) (W2 m ρ c (Proc.devRef .tc main_v25))) := by
  dsimp only [V3, W3, hostOps1]
  after_results
  rw [W2_arg4]
  rfl

end Cert.KernelIdeal.Val

end
-- ==== Proof.KernelValue.lean ====
/-
  The kernel program's result as one function of its arguments. The second pallas_call leaves `Spec.combine` of the
  arrays it finds; those are the first argument, the self weight and bias, and the two aggregates, each aggregate the rows
  of one half of the first call's result added at the rows an index array names; and the first call leaves `Spec.gemm` of
  the gathered rows, the relation weights and the relation biases. Substituting gives `kfinal`.
-/
import proofs.«125129_j37898791420464_1_alg».proof.Proof.Gen.KernelIdeal.Frame
import proofs.«125129_j37898791420464_1_alg».proof.Proof.Region0
import proofs.«125129_j37898791420464_1_alg».proof.Proof.Region1
import proofs.«125129_j37898791420464_1_alg».proof.Proof.HostReads
import proofs.«125129_j37898791420464_1_alg».proof.Proof.KTerms
import proofs.«125129_j37898791420464_1_alg».proof.Proof.Spec

set_option maxRecDepth 16384

noncomputable section

namespace Cert.KernelIdeal.Val

open Cert.KernelIdeal Cert.KernelIdeal.Gen Idealize.ShloMosaic Idealize.ShloMosaic.TcCoe Idealize.SL.Sem

/-- The result of the kernel's program from its argument arrays: rows `x`, stacked weights `w`, stacked biases `b`, the
    dependents' indices `ad` and the governors' indices `ag`. -/
def kfinal (x : (⟨S262144x128, .f32⟩ : BufTy).Contents (Elt Ideal)) (w : (⟨S66x128x128, .f32⟩ : BufTy).Contents (Elt Ideal))
    (b : (⟨S66x128, .f32⟩ : BufTy).Contents (Elt Ideal)) (ad ag : (⟨S262144, .i32⟩ : BufTy).Contents (Elt Ideal)) :
    (⟨S262144x128, .f32⟩ : BufTy).Contents (Elt Ideal) :=
  Cert.Spec.combine x (w0 (F := Ideal) w) (b0 (F := Ideal) b)
    (agg (F := Ideal) ad (msgLo (F := Ideal) (Cert.Spec.gemm (xcat (F := Ideal) x ag ad) (wcat (F := Ideal) w) (bcat (F := Ideal) b))))
    (agg (F := Ideal) ag (msgHi (F := Ideal) (Cert.Spec.gemm (xcat (F := Ideal) x ag ad) (wcat (F := Ideal) w) (bcat (F := Ideal) b))))

variable (m : (ℓ : Loc nD τ sig) → Buf (Elt Ideal) ℓ) (ρ : Dev nD → PrngReg)

/-- The first call's result array when the second stretch of host operations starts. -/
theorem v25_eq (c : Dev nD) : W2 m ρ c (Proc.devRef .tc main_v25)
    = Cert.Spec.gemm (xcat (F := Ideal) (m ((c : Thread nD τ).loc main_arg0)) (m ((c : Thread nD τ).loc main_arg4)) (m ((c : Thread nD τ).loc main_arg3)))
        (wcat (F := Ideal) (m ((c : Thread nD τ).loc main_arg1))) (bcat (F := Ideal) (m ((c : Thread nD τ).loc main_arg2))) := by
  refine (W2_arr m ρ c 3).trans ?_
  rw [final0 (V1 m ρ) c, V1_v22 m ρ c, V1_v23 m ρ c, V1_v24 m ρ c]

/-- The result buffer at the end of @main. -/
theorem v41_eq (c : Dev nD) : W4 m ρ c (Proc.devRef .tc main_v41)
    = kfinal (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 5).trans ?_
  rw [final1 (V3 m ρ) c, V3_arg0 m ρ c, V3_v37 m ρ c, V3_v40 m ρ c, V3_v32 m ρ c, V3_v35 m ρ c, v25_eq m ρ c]
  rfl

end Cert.KernelIdeal.Val

end
-- ==== Proof.Messages.lean ====
/-
  The per-edge messages agree. The kernel's program computes all 64 relation groups in one call and then takes
  groups 0..31 (the forward relations) and groups 32..63 (the reversed ones) as 262144 rows each; the reference
  computes each half as a batched product plus the broadcast bias and lays it out as 262144 rows. Row `r` is edge
  `r mod 8192` of group `r / 8192`; on both sides entry `(r, o)` is the product of that edge's gathered row with column
  `o` of the group's weight matrix, plus entry `o` of the group's bias — the same sum over the 128 input features, term
  by term.
-/
import proofs.«125129_j37898791420464_1_alg».proof.Proof.Gen.ReferenceIdeal.Read
import proofs.«125129_j37898791420464_1_alg».proof.Proof.KTerms
import proofs.«125129_j37898791420464_1_alg».proof.Proof.Spec
import Idealize.ShloMosaic.Lib.Pipeline.Value
import Idealize.ShloMosaic.Lib.ValueIdx
import Idealize.ShloMosaic.Lib.ValueLayout

noncomputable section

namespace Cert.Proof.Bridge

open Idealize.ShloMosaic Idealize.ShloMosaic.ValueIdx

section Generic
variable {α : Type}

/-- Two stacks of 32 groups laid one after the other along the group axis: a group below 32 is read from the first
    stack at the same coordinates. -/
theorem cat_lo {n1 n2 : Nat} (y1 y2 : (⟨3, ![32, n1, n2]⟩ : Shape).Idx → α)
    (h : Shape.Concatenates [(⟨3, ![32, n1, n2]⟩ : Shape), ⟨3, ![32, n1, n2]⟩] ⟨3, ![64, n1, n2]⟩ 0)
    (g : Fin 32) (e : Fin n1) (k : Fin n2) :
    concatenate (⟨3, ![64, n1, n2]⟩ : Shape) 0 [⟨⟨3, ![32, n1, n2]⟩, y1⟩, ⟨⟨3, ![32, n1, n2]⟩, y2⟩] h
      (ix3 (⟨g.val, by omega⟩ : Fin 64) e k) = y1 (ix3 g e k) :=
  concatenate_pair_apply_left 0 y1 y2 h _ rfl (ix3 g e k) (fun b => match b with
    | ⟨0, _⟩ => rfl
    | ⟨1, _⟩ => rfl
    | ⟨2, _⟩ => rfl)

/-- A group from 32 on is read from the second stack, 32 groups earlier. -/
theorem cat_hi {n1 n2 : Nat} (y1 y2 : (⟨3, ![32, n1, n2]⟩ : Shape).Idx → α)
    (h : Shape.Concatenates [(⟨3, ![32, n1, n2]⟩ : Shape), ⟨3, ![32, n1, n2]⟩] ⟨3, ![64, n1, n2]⟩ 0)
    (g : Fin 32) (e : Fin n1) (k : Fin n2) :
    concatenate (⟨3, ![64, n1, n2]⟩ : Shape) 0 [⟨⟨3, ![32, n1, n2]⟩, y1⟩, ⟨⟨3, ![32, n1, n2]⟩, y2⟩] h
      (ix3 (⟨g.val + 32, by omega⟩ : Fin 64) e k) = y2 (ix3 g e k) :=
  concatenate_pair_apply_right 0 y1 y2 h _ rfl rfl (ix3 g e k) (fun b hb => match b, hb with
    | ⟨0, _⟩, hb => absurd rfl hb
    | ⟨1, _⟩, _ => rfl
    | ⟨2, _⟩, _ => rfl) rfl

/-- Thirty-two consecutive groups from group `off`, laid out as rows: row `g * 8192 + e` is row `e` of group `off + g`. -/
theorem half_apply (off : Nat) (hoff : off + 32 ≤ 64) (y : (⟨3, ![64, 8192, 128]⟩ : Shape).Idx → α)
    (hs : (⟨3, ![64, 8192, 128]⟩ : Shape).Slices ![off, 0, 0] ⟨3, ![32, 8192, 128]⟩)
    (hc : (⟨3, ![32, 8192, 128]⟩ : Shape).ShapeCasts ⟨2, ![262144, 128]⟩)
    (g : Fin 32) (e : Fin 8192) (o : Fin 128) :
    shapeCast (⟨2, ![262144, 128]⟩ : Shape) (extractStridedSlice (⟨3, ![32, 8192, 128]⟩ : Shape) ![off, 0, 0] y hs) hc
      (ix2 (⟨g.val * 8192 + e.val, by omega⟩ : Fin 262144) o) = y (ix3 (⟨g.val + off, by omega⟩ : Fin 64) e o) := by
  generalize hz : extractStridedSlice (⟨3, ![32, 8192, 128]⟩ : Shape) ![off, 0, 0] y hs = z
  refine (shapeCast_apply z hc _ (ix3 g e o) ?_).trans ?_
  · rewrite [Shape.rowMajor_val_three, Shape.rowMajor_val_two]
    show (g.val * 8192 + e.val) * 128 + o.val = (g.val * 8192 + e.val) * 128 + o.val
    rfl
  · subst hz
    exact extractStridedSlice_apply ![off, 0, 0] y hs (ix3 g e o) _ (fun a => match a with
      | ⟨0, _⟩ => by show g.val + off = off + g.val; omega
      | ⟨1, _⟩ => by show e.val = 0 + e.val; omega
      | ⟨2, _⟩ => by show o.val = 0 + o.val; omega)

end Generic

section Pieces
open Cert.ReferenceIdeal.Read

/-- Row `g * 8192 + e`, column `o`, sits at group `g`, row `e`, column `o` of the 32 x 8192 x 128 layout. -/
theorem idx16 (g : Fin 32) (e : Fin 8192) (o : Fin 128) :
    idx_main_v16 (ix2 (⟨g.val * 8192 + e.val, by omega⟩ : Fin 262144) o) = ix3 g e o := by
  funext a
  apply Fin.ext
  match a with
  | ⟨0, _⟩ => show ((g.val * 8192 + e.val) * 128 + o.val) / 1048576 = g.val; omega
  | ⟨1, _⟩ => show ((g.val * 8192 + e.val) * 128 + o.val) / 128 % 8192 = e.val; omega
  | ⟨2, _⟩ => show ((g.val * 8192 + e.val) * 128 + o.val) % 128 = o.val; omega

/-- The reference's forward message at row `g * 8192 + e`, column `o`. -/
theorem ref_fwd_at (x : (⟨Cert.ReferenceIdeal.S262144x128, .f32⟩ : BufTy).Contents (Elt Ideal)) (w : (⟨Cert.ReferenceIdeal.S66x128x128, .f32⟩ : BufTy).Contents (Elt Ideal))
    (b : (⟨Cert.ReferenceIdeal.S66x128, .f32⟩ : BufTy).Contents (Elt Ideal))
    (ag : (⟨Cert.ReferenceIdeal.S262144, .i32⟩ : BufTy).Contents (Elt Ideal)) (g : Fin 32) (e : Fin 8192) (o : Fin 128) :
    val_main_v16 (F := Ideal) x w b ag (ix2 (⟨g.val * 8192 + e.val, by omega⟩ : Fin 262144) o)
      = (∑ k : Fin 128, val_main_v11 (F := Ideal) x ag (ix3 g e k) * val_main_v0 (F := Ideal) w (ix3 g k o))
        + val_main_v1 (F := Ideal) b (ix2 g o) := by
  rw [val_main_v16_apply, idx16, val_main_v15_apply, val_main_v12_apply, val_main_v14_apply, val_main_v13_apply, Ideal.addf_def]
  refine congrArg₂ (· + ·) (Finset.sum_congr rfl fun k _ => congrArg₂ (· * ·) (congrArg _ ?_) (congrArg _ ?_)) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl
  · funext a; match a with | ⟨0, _⟩ => rfl | ⟨1, _⟩ => rfl

end Pieces

section Kernel
open Cert.ReferenceIdeal.Read

/-- The gathered rows are one array in both programs' spellings. -/
theorem xRows_fwd (x : (⟨Cert.ReferenceIdeal.S262144x128, .f32⟩ : BufTy).Contents (Elt Ideal))
    (a : (⟨Cert.ReferenceIdeal.S262144, .i32⟩ : BufTy).Contents (Elt Ideal)) :
    Cert.KernelIdeal.Val.xRows (F := Ideal) x a = val_main_v11 (F := Ideal) x a := rfl

/-- The gathered rows of the reversed half likewise. -/
theorem xRows_rev (x : (⟨Cert.ReferenceIdeal.S262144x128, .f32⟩ : BufTy).Contents (Elt Ideal))
    (a : (⟨Cert.ReferenceIdeal.S262144, .i32⟩ : BufTy).Contents (Elt Ideal)) :
    Cert.KernelIdeal.Val.xRows (F := Ideal) x a = val_main_v27 (F := Ideal) x a := rfl

/-- The grouped product of two-stack operands at a group below 32 reads only the first stacks. -/
theorem gemm_cat_lo (x1 x2 : FVec Ideal ⟨3, ![32, 8192, 128]⟩ .f32) (w1 w2 : FVec Ideal ⟨3, ![32, 128, 128]⟩ .f32)
    (b1 b2 : FVec Ideal ⟨3, ![32, 1, 128]⟩ .f32)
    (hX : Shape.Concatenates [(⟨3, ![32, 8192, 128]⟩ : Shape), ⟨3, ![32, 8192, 128]⟩] ⟨3, ![64, 8192, 128]⟩ 0)
    (hW : Shape.Concatenates [(⟨3, ![32, 128, 128]⟩ : Shape), ⟨3, ![32, 128, 128]⟩] ⟨3, ![64, 128, 128]⟩ 0)
    (hB : Shape.Concatenates [(⟨3, ![32, 1, 128]⟩ : Shape), ⟨3, ![32, 1, 128]⟩] ⟨3, ![64, 1, 128]⟩ 0)
    (g : Fin 32) (e : Fin 8192) (o : Fin 128) :
    Cert.Spec.gemm (concatenate (⟨3, ![64, 8192, 128]⟩ : Shape) 0 [⟨⟨3, ![32, 8192, 128]⟩, x1⟩, ⟨⟨3, ![32, 8192, 128]⟩, x2⟩] hX)
        (concatenate (⟨3, ![64, 128, 128]⟩ : Shape) 0 [⟨⟨3, ![32, 128, 128]⟩, w1⟩, ⟨⟨3, ![32, 128, 128]⟩, w2⟩] hW)
        (concatenate (⟨3, ![64, 1, 128]⟩ : Shape) 0 [⟨⟨3, ![32, 1, 128]⟩, b1⟩, ⟨⟨3, ![32, 1, 128]⟩, b2⟩] hB)
        (ix3 (⟨g.val, by omega⟩ : Fin 64) e o)
      = (∑ k : Fin 128, x1 (ix3 g e k) * w1 (ix3 g k o)) + b1 (ix3 g (0 : Fin 1) o) := by
  show Cert.Spec.gemmAt _ _ _ (⟨g.val, _⟩ : Fin 64) e o = _
  unfold Cert.Spec.gemmAt
  exact congrArg₂ (· + ·) (Finset.sum_congr rfl fun k _ => congrArg₂ (· * ·) (cat_lo x1 x2 hX g e k) (cat_lo w1 w2 hW g k o))
    (cat_lo b1 b2 hB g 0 o)

/-- At a group from 32 on it reads only the second stacks, 32 groups earlier. -/
theorem gemm_cat_hi (x1 x2 : FVec Ideal ⟨3, ![32, 8192, 128]⟩ .f32) (w1 w2 : FVec Ideal ⟨3, ![32, 128, 128]⟩ .f32)
    (b1 b2 : FVec Ideal ⟨3, ![32, 1, 128]⟩ .f32)
    (hX : Shape.Concatenates [(⟨3, ![32, 8192, 128]⟩ : Shape), ⟨3, ![32, 8192, 128]⟩] ⟨3, ![64, 8192, 128]⟩ 0)
    (hW : Shape.Concatenates [(⟨3, ![32, 128, 128]⟩ : Shape), ⟨3, ![32, 128, 128]⟩] ⟨3, ![64, 128, 128]⟩ 0)
    (hB : Shape.Concatenates [(⟨3, ![32, 1, 128]⟩ : Shape), ⟨3, ![32, 1, 128]⟩] ⟨3, ![64, 1, 128]⟩ 0)
    (g : Fin 32) (e : Fin 8192) (o : Fin 128) :
    Cert.Spec.gemm (concatenate (⟨3, ![64, 8192, 128]⟩ : Shape) 0 [⟨⟨3, ![32, 8192, 128]⟩, x1⟩, ⟨⟨3, ![32, 8192, 128]⟩, x2⟩] hX)
        (concatenate (⟨3, ![64, 128, 128]⟩ : Shape) 0 [⟨⟨3, ![32, 128, 128]⟩, w1⟩, ⟨⟨3, ![32, 128, 128]⟩, w2⟩] hW)
        (concatenate (⟨3, ![64, 1, 128]⟩ : Shape) 0 [⟨⟨3, ![32, 1, 128]⟩, b1⟩, ⟨⟨3, ![32, 1, 128]⟩, b2⟩] hB)
        (ix3 (⟨g.val + 32, by omega⟩ : Fin 64) e o)
      = (∑ k : Fin 128, x2 (ix3 g e k) * w2 (ix3 g k o)) + b2 (ix3 g (0 : Fin 1) o) := by
  show Cert.Spec.gemmAt _ _ _ (⟨g.val + 32, _⟩ : Fin 64) e o = _
  unfold Cert.Spec.gemmAt
  exact congrArg₂ (· + ·) (Finset.sum_congr rfl fun k _ => congrArg₂ (· * ·) (cat_hi x1 x2 hX g e k) (cat_hi w1 w2 hW g k o))
    (cat_hi b1 b2 hB g 0 o)

/-- A 32 x 128 array of bias rows seen as 32 x 1 x 128: entry `(g, 0, o)` is entry `(g, o)`. -/
theorem bias_apply {α : Type} (y : (⟨2, ![32, 128]⟩ : Shape).Idx → α) (hc : (⟨2, ![32, 128]⟩ : Shape).ShapeCasts ⟨3, ![32, 1, 128]⟩)
    (g : Fin 32) (o : Fin 128) :
    shapeCast (⟨3, ![32, 1, 128]⟩ : Shape) y hc (ix3 g (0 : Fin 1) o) = y (ix2 g o) :=
  shapeCast_apply y hc _ (ix2 g o) (by
    rewrite [Shape.rowMajor_val_two, Shape.rowMajor_val_three]
    show g.val * 128 + o.val = (g.val * 1 + 0) * 128 + o.val
    omega)

/-- The kernel program's forward message at row `g * 8192 + e`, column `o`. -/
theorem ker_fwd_at (x : (⟨Cert.ReferenceIdeal.S262144x128, .f32⟩ : BufTy).Contents (Elt Ideal)) (w : (⟨Cert.ReferenceIdeal.S66x128x128, .f32⟩ : BufTy).Contents (Elt Ideal))
    (b : (⟨Cert.ReferenceIdeal.S66x128, .f32⟩ : BufTy).Contents (Elt Ideal))
    (ag ad : (⟨Cert.ReferenceIdeal.S262144, .i32⟩ : BufTy).Contents (Elt Ideal)) (g : Fin 32) (e : Fin 8192) (o : Fin 128) :
    Cert.KernelIdeal.Val.msgLo (F := Ideal)
        (Cert.Spec.gemm (Cert.KernelIdeal.Val.xcat (F := Ideal) x ag ad) (Cert.KernelIdeal.Val.wcat (F := Ideal) w) (Cert.KernelIdeal.Val.bcat (F := Ideal) b))
        (ix2 (⟨g.val * 8192 + e.val, by omega⟩ : Fin 262144) o)
      = (∑ k : Fin 128, val_main_v11 (F := Ideal) x ag (ix3 g e k) * val_main_v0 (F := Ideal) w (ix3 g k o))
        + val_main_v1 (F := Ideal) b (ix2 g o) := by
  unfold Cert.KernelIdeal.Val.msgLo
  refine (half_apply 0 (by omega) _ _ _ g e o).trans ?_
  unfold Cert.KernelIdeal.Val.xcat Cert.KernelIdeal.Val.wcat Cert.KernelIdeal.Val.bcat
  refine (gemm_cat_lo _ _ _ _ _ _ _ _ _ g e o).trans ?_
  rw [xRows_fwd]
  exact congrArg₂ (· + ·) rfl (bias_apply _ _ g o)

end Kernel

section Reversed
open Cert.ReferenceIdeal.Read

/-- The same position fact for the reversed half's layout. -/
theorem idx32 (g : Fin 32) (e : Fin 8192) (o : Fin 128) :
    idx_main_v32 (ix2 (⟨g.val * 8192 + e.val, by omega⟩ : Fin 262144) o) = ix3 g e o := by
  funext a
  apply Fin.ext
  match a with
  | ⟨0, _⟩ => show ((g.val * 8192 + e.val) * 128 + o.val) / 1048576 = g.val; omega
  | ⟨1, _⟩ => show ((g.val * 8192 + e.val) * 128 + o.val) / 128 % 8192 = e.val; omega
  | ⟨2, _⟩ => show ((g.val * 8192 + e.val) * 128 + o.val) % 128 = o.val; omega

/-- The reference's reversed message at row `g * 8192 + e`, column `o`. -/
theorem ref_rev_at (x : (⟨Cert.ReferenceIdeal.S262144x128, .f32⟩ : BufTy).Contents (Elt Ideal)) (w : (⟨Cert.ReferenceIdeal.S66x128x128, .f32⟩ : BufTy).Contents (Elt Ideal))
    (b : (⟨Cert.ReferenceIdeal.S66x128, .f32⟩ : BufTy).Contents (Elt Ideal))
    (ad : (⟨Cert.ReferenceIdeal.S262144, .i32⟩ : BufTy).Contents (Elt Ideal)) (g : Fin 32) (e : Fin 8192) (o : Fin 128) :
    val_main_v32 (F := Ideal) x w b ad (ix2 (⟨g.val * 8192 + e.val, by omega⟩ : Fin 262144) o)
      = (∑ k : Fin 128, val_main_v27 (F := Ideal) x ad (ix3 g e k) * val_main_v2 (F := Ideal) w (ix3 g k o))
        + val_main_v3 (F := Ideal) b (ix2 g o) := by
  rw [val_main_v32_apply, idx32, val_main_v31_apply, val_main_v28_apply, val_main_v30_apply, val_main_v29_apply, Ideal.addf_def]
  refine congrArg₂ (· + ·) (Finset.sum_congr rfl fun k _ => congrArg₂ (· * ·) (congrArg _ ?_) (congrArg _ ?_)) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl
  · funext a; match a with | ⟨0, _⟩ => rfl | ⟨1, _⟩ => rfl

/-- The kernel program's reversed message at row `g * 8192 + e`, column `o`. -/
theorem ker_rev_at (x : (⟨Cert.ReferenceIdeal.S262144x128, .f32⟩ : BufTy).Contents (Elt Ideal)) (w : (⟨Cert.ReferenceIdeal.S66x128x128, .f32⟩ : BufTy).Contents (Elt Ideal))
    (b : (⟨Cert.ReferenceIdeal.S66x128, .f32⟩ : BufTy).Contents (Elt Ideal))
    (ag ad : (⟨Cert.ReferenceIdeal.S262144, .i32⟩ : BufTy).Contents (Elt Ideal)) (g : Fin 32) (e : Fin 8192) (o : Fin 128) :
    Cert.KernelIdeal.Val.msgHi (F := Ideal)
        (Cert.Spec.gemm (Cert.KernelIdeal.Val.xcat (F := Ideal) x ag ad) (Cert.KernelIdeal.Val.wcat (F := Ideal) w) (Cert.KernelIdeal.Val.bcat (F := Ideal) b))
        (ix2 (⟨g.val * 8192 + e.val, by omega⟩ : Fin 262144) o)
      = (∑ k : Fin 128, val_main_v27 (F := Ideal) x ad (ix3 g e k) * val_main_v2 (F := Ideal) w (ix3 g k o))
        + val_main_v3 (F := Ideal) b (ix2 g o) := by
  unfold Cert.KernelIdeal.Val.msgHi
  refine (half_apply 32 (by omega) _ _ _ g e o).trans ?_
  unfold Cert.KernelIdeal.Val.xcat Cert.KernelIdeal.Val.wcat Cert.KernelIdeal.Val.bcat
  refine (gemm_cat_hi _ _ _ _ _ _ _ _ _ g e o).trans ?_
  rw [xRows_rev]
  exact congrArg₂ (· + ·) rfl (bias_apply _ _ g o)

end Reversed

/-- The forward messages: groups 0..31 of the kernel's grouped product are the reference's forward product. -/
theorem msg_fwd (x : (⟨Cert.ReferenceIdeal.S262144x128, .f32⟩ : BufTy).Contents (Elt Ideal)) (w : (⟨Cert.ReferenceIdeal.S66x128x128, .f32⟩ : BufTy).Contents (Elt Ideal))
    (b : (⟨Cert.ReferenceIdeal.S66x128, .f32⟩ : BufTy).Contents (Elt Ideal))
    (ag ad : (⟨Cert.ReferenceIdeal.S262144, .i32⟩ : BufTy).Contents (Elt Ideal)) :
    Cert.KernelIdeal.Val.msgLo (F := Ideal)
        (Cert.Spec.gemm (Cert.KernelIdeal.Val.xcat (F := Ideal) x ag ad) (Cert.KernelIdeal.Val.wcat (F := Ideal) w) (Cert.KernelIdeal.Val.bcat (F := Ideal) b))
      = Cert.ReferenceIdeal.Read.val_main_v16 (F := Ideal) x w b ag := by
  funext i
  obtain ⟨r, o, rfl⟩ : ∃ (r : Fin 262144) (o : Fin 128), i = ix2 r o := ⟨i 0, i 1, eq_ix2 i⟩
  obtain ⟨g, e, rfl⟩ : ∃ (g : Fin 32) (e : Fin 8192), r = ⟨g.val * 8192 + e.val, by omega⟩ :=
    ⟨⟨r.val / 8192, by omega⟩, ⟨r.val % 8192, by omega⟩, Fin.ext (by show r.val = r.val / 8192 * 8192 + r.val % 8192; omega)⟩
  exact (ker_fwd_at x w b ag ad g e o).trans (ref_fwd_at x w b ag g e o).symm

/-- The reversed messages: groups 32..63 are the reference's reversed product. -/
theorem msg_rev (x : (⟨Cert.ReferenceIdeal.S262144x128, .f32⟩ : BufTy).Contents (Elt Ideal)) (w : (⟨Cert.ReferenceIdeal.S66x128x128, .f32⟩ : BufTy).Contents (Elt Ideal))
    (b : (⟨Cert.ReferenceIdeal.S66x128, .f32⟩ : BufTy).Contents (Elt Ideal))
    (ag ad : (⟨Cert.ReferenceIdeal.S262144, .i32⟩ : BufTy).Contents (Elt Ideal)) :
    Cert.KernelIdeal.Val.msgHi (F := Ideal)
        (Cert.Spec.gemm (Cert.KernelIdeal.Val.xcat (F := Ideal) x ag ad) (Cert.KernelIdeal.Val.wcat (F := Ideal) w) (Cert.KernelIdeal.Val.bcat (F := Ideal) b))
      = Cert.ReferenceIdeal.Read.val_main_v32 (F := Ideal) x w b ad := by
  funext i
  obtain ⟨r, o, rfl⟩ : ∃ (r : Fin 262144) (o : Fin 128), i = ix2 r o := ⟨i 0, i 1, eq_ix2 i⟩
  obtain ⟨g, e, rfl⟩ : ∃ (g : Fin 32) (e : Fin 8192), r = ⟨g.val * 8192 + e.val, by omega⟩ :=
    ⟨⟨r.val / 8192, by omega⟩, ⟨r.val % 8192, by omega⟩, Fin.ext (by show r.val = r.val / 8192 * 8192 + r.val % 8192; omega)⟩
  exact (ker_rev_at x w b ag ad g e o).trans (ref_rev_at x w b ad g e o).symm

end Cert.Proof.Bridge

end
-- ==== Proof.SelfTerm.lean ====
/-
  The last step agrees. With the two aggregates given, the kernel's second call computes, entry by entry, the larger
  of zero and `((x r · W0(·, o) + b0 o) + f(r, o)) + s(r, o)`; the reference computes the whole product `x W0`, adds the
  bias broadcast over the rows, adds the two aggregates in the same order and takes the larger of zero. The product at
  `(r, o)` is the same sum over the 128 input features on both sides, and the bias entry is the same element of slot 0.
-/
import proofs.«125129_j37898791420464_1_alg».proof.Proof.Gen.ReferenceIdeal.Read
import proofs.«125129_j37898791420464_1_alg».proof.Proof.KTerms
import proofs.«125129_j37898791420464_1_alg».proof.Proof.Spec
import proofs.«125129_j37898791420464_1_alg».proof.Proof.LibPlainDot
import Idealize.ShloMosaic.Lib.Pipeline.Value
import Idealize.ShloMosaic.Lib.ValueIdx
import Idealize.ShloMosaic.Lib.ValueLayout

noncomputable section

namespace Cert.Proof.Bridge

open Idealize.ShloMosaic Idealize.ShloMosaic.ValueIdx

/-- The combined output over given aggregates is the reference's sum and rectifier over the same aggregates. -/
theorem combine_eq (x : (⟨Cert.ReferenceIdeal.S262144x128, .f32⟩ : BufTy).Contents (Elt Ideal)) (w : (⟨Cert.ReferenceIdeal.S66x128x128, .f32⟩ : BufTy).Contents (Elt Ideal))
    (b : (⟨Cert.ReferenceIdeal.S66x128, .f32⟩ : BufTy).Contents (Elt Ideal))
    (f s : (⟨Cert.ReferenceIdeal.S262144x128, .f32⟩ : BufTy).Contents (Elt Ideal)) :
    Cert.Spec.combine x (Cert.KernelIdeal.Val.w0 (F := Ideal) w) (Cert.KernelIdeal.Val.b0 (F := Ideal) b) f s
      = maximumf (addf (addf (Cert.ReferenceIdeal.Read.val_main_v43 (F := Ideal) x w b) f) s)
          (Cert.ReferenceIdeal.Read.val_main_call0_v0 (F := Ideal)) := by
  -- The self weight is the same term on both sides: slot 0 of `w` read as a 128 x 128 matrix.
  have hw : Cert.KernelIdeal.Val.w0 (F := Ideal) w = Cert.ReferenceIdeal.Read.val_main_v37 (F := Ideal) w := rfl
  funext i
  obtain ⟨r, o, rfl⟩ : ∃ (r : Fin 262144) (o : Fin 128), i = ix2 r o := ⟨i 0, i 1, eq_ix2 i⟩
  rw [maximumf_apply, addf_apply, addf_apply, Cert.ReferenceIdeal.Read.val_main_v43_apply,
    Cert.ReferenceIdeal.Read.val_main_v38_apply, Cert.ReferenceIdeal.Read.val_main_v42_apply,
    Cert.ReferenceIdeal.Read.val_main_v41_apply, Cert.ReferenceIdeal.Read.val_main_call0_v0_apply,
    Cert.ReferenceIdeal.Read.val_main_call0_cst_apply, hw]
  show max ((((∑ k : Fin 128, x (ix2 r k) * Cert.ReferenceIdeal.Read.val_main_v37 (F := Ideal) w (ix2 k o))
      + Cert.KernelIdeal.Val.b0 (F := Ideal) b (ix2 (0 : Fin 1) o)) + f (ix2 r o)) + s (ix2 r o))
      (Ideal.ofBits .f32 0x00000000#32) = _
  -- The product's operands at `(r, o)` and feature `k` are `x (r, k)` and `W0 (k, o)`.
  have hl : ∀ k : Fin 128, Cert.ReferenceIdeal.Read.lidx_main_v38 (ix2 r o) k = ix2 r k := fun k =>
    funext fun a => match a with | ⟨0, _⟩ => rfl | ⟨1, _⟩ => rfl
  have hr : ∀ k : Fin 128, Cert.ReferenceIdeal.Read.ridx_main_v38 (ix2 r o) k = ix2 k o := fun k =>
    funext fun a => match a with | ⟨0, _⟩ => rfl | ⟨1, _⟩ => rfl
  -- The bias broadcast over the rows reads, at `(r, o)`, entry `o` of slot 0 of `b`; so does the row `(0, o)`.
  have hi : Cert.ReferenceIdeal.Read.idx_main_v41 (Cert.ReferenceIdeal.Read.idx_main_v42 (ix2 r o)) = ix1 o :=
    funext fun a => match a with | ⟨0, _⟩ => rfl
  have hb : Cert.KernelIdeal.Val.b0 (F := Ideal) b (ix2 (0 : Fin 1) o)
      = Cert.ReferenceIdeal.Read.val_main_v40 (F := Ideal) b (ix1 o) :=
    shapeCast_a_1a_apply (Cert.ReferenceIdeal.Read.val_main_v40 (F := Ideal) b) _ (0 : Fin 1) o
  rw [hi, hb]
  simp only [hl, hr]
  rfl

end Cert.Proof.Bridge

end
-- ==== Proof.Bridge.lean ====
/-
  The kernel program's result function is the reference's. Both add the same two aggregates to the self term in the same
  order and rectify; each aggregate adds the rows of one half of the messages at the rows the same index array names, into
  zeros; the message halves agree (Proof/Messages.lean) and so does the last step over given aggregates
  (Proof/SelfTerm.lean).
-/
import proofs.«125129_j37898791420464_1_alg».proof.Proof.Gen.ReferenceIdeal.Read
import proofs.«125129_j37898791420464_1_alg».proof.Proof.KernelValue
import proofs.«125129_j37898791420464_1_alg».proof.Proof.Messages
import proofs.«125129_j37898791420464_1_alg».proof.Proof.SelfTerm

noncomputable section

namespace Cert.Proof.Bridge

open Idealize.ShloMosaic

/-- Adding rows into zeros at named rows is one operation in the two programs' spellings: the forward aggregate. -/
theorem agg_fwd (a : (⟨Cert.ReferenceIdeal.S262144, .i32⟩ : BufTy).Contents (Elt Ideal))
    (u : (⟨Cert.ReferenceIdeal.S262144x128, .f32⟩ : BufTy).Contents (Elt Ideal)) :
    Cert.KernelIdeal.Val.agg (F := Ideal) a u
      = Host.scatterAdd (F := Ideal) (φ := .f32) Cert.ReferenceIdeal.scatter_S262144x128_S262144x1_S262144x128_1_0_0_1
          (Cert.ReferenceIdeal.Read.val_main_v17 (F := Ideal)) (Cert.ReferenceIdeal.Read.val_main_v18 (F := Ideal) a) u := rfl

/-- The reversed aggregate. -/
theorem agg_rev (a : (⟨Cert.ReferenceIdeal.S262144, .i32⟩ : BufTy).Contents (Elt Ideal))
    (u : (⟨Cert.ReferenceIdeal.S262144x128, .f32⟩ : BufTy).Contents (Elt Ideal)) :
    Cert.KernelIdeal.Val.agg (F := Ideal) a u
      = Host.scatterAdd (F := Ideal) (φ := .f32) Cert.ReferenceIdeal.scatter_S262144x128_S262144x1_S262144x128_1_0_0_1
          (Cert.ReferenceIdeal.Read.val_main_v33 (F := Ideal)) (Cert.ReferenceIdeal.Read.val_main_v34 (F := Ideal) a) u := rfl

/-- The kernel program's result function of the arguments is the reference's last stage. -/
theorem kfinal_eq (x : (⟨Cert.ReferenceIdeal.S262144x128, .f32⟩ : BufTy).Contents (Elt Ideal))
    (w : (⟨Cert.ReferenceIdeal.S66x128x128, .f32⟩ : BufTy).Contents (Elt Ideal))
    (b : (⟨Cert.ReferenceIdeal.S66x128, .f32⟩ : BufTy).Contents (Elt Ideal))
    (ad ag : (⟨Cert.ReferenceIdeal.S262144, .i32⟩ : BufTy).Contents (Elt Ideal)) :
    Cert.KernelIdeal.Val.kfinal x w b ad ag = Cert.ReferenceIdeal.Read.val_main_v46 (F := Ideal) x w b ad ag := by
  unfold Cert.KernelIdeal.Val.kfinal
  rw [msg_fwd x w b ag ad, msg_rev x w b ag ad, agg_fwd, agg_rev, combine_eq]
  rfl

end Cert.Proof.Bridge

end
-- ==== Proof.lean ====
/-
  A two-call message-passing layer against its plain reference, over the extended reals.

  The program gathers the rows of `x` named by the governors' and the dependents' indices, multiplies each of 64 groups
  of 8192 gathered rows by its group's 128 x 128 weight and adds the group's bias in ONE pallas_call (the factors narrowed
  to bf16 first, which is the identity over the extended reals), adds the forward half's rows into a zero array at the
  dependents' rows and the reversed half's at the governors' rows on the host, and in a SECOND pallas_call computes the
  larger of zero and `((x W0 + b0) + forward aggregate) + reversed aggregate`, 4096 rows at a time. The reference does the
  two halves as two batched products, the self term as one whole product, and the same additions in the same order.
  The two results are one function of the arguments: each product entry is the same sum over the 128 input features on
  both sides, so no law beyond reading both sides at an index is used and the finiteness of the inputs is never opened.

  The frames of the two kernel programs are the generated ones; the reference's is its generated run with the result
  dropped; nothing was rewritten by the ideal pass, so `preserves` is trivial.
-/
import proofs.«125129_j37898791420464_1_alg».proof.Defs
import proofs.«125129_j37898791420464_1_alg».proof.Proof.Gen.Kernel
import proofs.«125129_j37898791420464_1_alg».proof.Proof.Gen.Kernel.Frame
import proofs.«125129_j37898791420464_1_alg».proof.Proof.Gen.KernelIdeal
import proofs.«125129_j37898791420464_1_alg».proof.Proof.Gen.KernelIdeal.Frame
import proofs.«125129_j37898791420464_1_alg».proof.Proof.Gen.ReferenceIdeal
import proofs.«125129_j37898791420464_1_alg».proof.Proof.Gen.ReferenceIdeal.Run
import proofs.«125129_j37898791420464_1_alg».proof.Proof.Gen.ReferenceIdeal.Read
import proofs.«125129_j37898791420464_1_alg».proof.Proof.Gen.Pre_finite_inputs
import proofs.«125129_j37898791420464_1_alg».proof.Proof.KernelRun
import proofs.«125129_j37898791420464_1_alg».proof.Proof.KernelValue
import proofs.«125129_j37898791420464_1_alg».proof.Proof.Bridge
import Idealize.ShloMosaic.Adequacy
import Idealize.ShloMosaic.Init

noncomputable section

namespace Cert.Proof

open Idealize.ShloMosaic Idealize.SL.Sem

/-- The kernel's program as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result buffer at the reference's last stage of the arguments. -/
theorem algebraic : Cert.algebraic_KernelIdeal_ReferenceIdeal := by
  intro m ρ m' ρ' _ hagree
  refine ⟨fun c => Cert.ReferenceIdeal.Read.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.GenRun.run (F := Ideal) m ρ)
    exact (Cert.KernelIdeal.Val.v41_eq m ρ c).trans (Cert.Proof.Bridge.kfinal_eq _ _ _ _ _)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1]
    exact Cert.ReferenceIdeal.Read.val_main_v46_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
